-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8x1048576 : Shape := ⟨3, ![16, 8, 1048576]⟩
abbrev S_ : Shape := ⟨0, ![]⟩

class Facts : Prop where
  bcast_S_S16x8x1048576 : S_.BroadcastsInDim S16x8x1048576 (![] : Fin 0 → Fin S16x8x1048576.rank)
  reducesTo_S16x8x1048576_S_d0_1_2 : S16x8x1048576.ReducesTo [0, 1, 2] S_
  h_S_ : 0 < S_.numel

variable [Facts]

def fn {F : FTy → Type} [FloatOps F] (main_arg0 : FVec F S16x8x1048576 .f32) : IVec S_ 1 :=
  let main_v0 : FVec F S16x8x1048576 .f32 := Host.absf main_arg0
  let main_cst : FVec F S_ .f32 := constant S_ .f32 0x7F800000#32
  let main_v1 : FVec F S16x8x1048576 .f32 := broadcastInDim S16x8x1048576 ![] bcast_S_S16x8x1048576 main_cst
  let main_v2 : IVec S16x8x1048576 1 := cmpf .olt main_v0 main_v1
  let main_c : IVec S_ 1 := constantI S_ 1 1#1
  let main_v3 : IVec S_ 1 := (fun x v => Host.reduce IntOp.andi x v reducesTo_S16x8x1048576_S_d0_1_2 h_S_) main_v2 main_c
  main_v3
-- ==== Kernel.lean ====
abbrev S16x8x1048576 : Shape := ⟨3, ![16, 8, 1048576]⟩
abbrev S16x8x8192 : Shape := ⟨3, ![16, 8, 8192]⟩

abbrev nBuf : Space → Nat
  | .hbm => 2
  | .vmem => 4
  | .smem => 0
  | _ => 0

abbrev bufTy : (tb : Table) → Fin (tcTables nBuf tb) → BufTy
  | .hbm, ⟨0, _⟩ => ⟨S16x8x1048576, .f32⟩
  | .hbm, ⟨1, _⟩ => ⟨S16x8x1048576, .f32⟩
  | .local _ .vmem, ⟨0, _⟩ => ⟨S16x8x8192, .f32⟩
  | .local _ .vmem, ⟨1, _⟩ => ⟨S16x8x8192, .f32⟩
  | .local _ .vmem, ⟨2, _⟩ => ⟨S16x8x8192, .f32⟩
  | .local _ .vmem, ⟨3, _⟩ => ⟨S16x8x8192, .f32⟩
  | _, _ => ⟨S16x8x1048576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S16x8x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x8x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  iota_S16x8x8192_d1_w32 : S16x8x8192.Iotas .tc 32 [1]
  natLt_1_32 : 1 < 32
  inb_S16x8x8192_S16x8x8192_0_0_0 : ∀ a, (![0, 0, 0] : Fin 3 → Nat) a + S16x8x8192.size a ≤ S16x8x8192.size a
  h_S16x8x8192 : 0 < S16x8x8192.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x8x8192.size a ≤ S16x8x1048576.size a
  hwx0_0 : ∀ i : grid0.Coords, EltTy.bits .f32 = 32 ∨ (Rect.block (s := S16x8x1048576) S16x8x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x8x8192.size a ≤ S16x8x1048576.size a
  hwx0_1 : ∀ i : grid0.Coords, EltTy.bits .f32 = 32 ∨ (Rect.block (s := S16x8x1048576) S16x8x8192.size (cc0_transform_1 i) (hinb0_1 i)).WholeWords (EltTy.packing .f32)

variable [Facts₀]

abbrev win0_0 : Pipeline.Window sig grid0 :=
  Pipeline.Window.ofSpec (Memref.whole main_arg0) S16x8x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x8x8192.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x8x1048576 : Shape := ⟨3, ![16, 8, 1048576]⟩
abbrev S8 : Shape := ⟨1, ![8]⟩
abbrev S_ : Shape := ⟨0, ![]⟩
abbrev S1x8x1 : Shape := ⟨3, ![1, 8, 1]⟩

abbrev nBuf : Space → Nat
  | .hbm => 9
  | .vmem => 0
  | .smem => 0
  | _ => 0

abbrev bufTy : (tb : Table) → Fin (tcTables nBuf tb) → BufTy
  | .hbm, ⟨0, _⟩ => ⟨S16x8x1048576, .f32⟩
  | .hbm, ⟨1, _⟩ => ⟨S8, .i32⟩
  | .hbm, ⟨2, _⟩ => ⟨S_, .i32⟩
  | .hbm, ⟨3, _⟩ => ⟨S8, .i32⟩
  | .hbm, ⟨4, _⟩ => ⟨S8, .i1⟩
  | .hbm, ⟨5, _⟩ => ⟨S8, .f32⟩
  | .hbm, ⟨6, _⟩ => ⟨S1x8x1, .f32⟩
  | .hbm, ⟨7, _⟩ => ⟨S16x8x1048576, .f32⟩
  | .hbm, ⟨8, _⟩ => ⟨S16x8x1048576, .f32⟩
  | _, _ => ⟨S16x8x1048576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S8_S1x8x1_1 : S8.BroadcastsInDim S1x8x1 (![1] : Fin 1 → Fin S1x8x1.rank)
  bcast_S1x8x1_S16x8x1048576_0_1_2 : S1x8x1.BroadcastsInDim S16x8x1048576 (![0, 1, 2] : Fin 3 → Fin S16x8x1048576.rank)

variable [Facts₀]

class Facts : Prop extends Facts₀ where

variable [Facts]
-- ==== Proof.ChannelWeight.lean ====
/-
  The weight of a channel: 1 for channel 0 and 0 for every other channel. Both programs multiply the entry
  x[b, c, s] by the weight of its channel c (`keepFirst`, the function both are proved to compute), and they
  spell that weight differently. The flag "c = 0" is a
  one-bit word, the comparison of the channel number (a 32-bit word) with the zero word. The host converts the
  flag to a float reading it unsigned; the kernel first widens the flag to a 32-bit word and converts that reading
  it signed. Over the extended reals a conversion is the exact integer, a widened bit read signed is the bit read
  unsigned, and the flag's number is 1 when c = 0 and 0 otherwise: so both spellings are the weight.
-/
import Idealize.ShloMosaic.PureOps.Ideal
import Idealize.ShloMosaic.Lib.KernelVsHost

noncomputable section

namespace Cert.ChannelWeight

open Idealize.ShloMosaic

/-- The weight of channel `c`: one for the first channel, zero for the others. -/
def weight (c : ℕ) : EReal := if c = 0 then 1 else 0

/-- The flag "channel `c` is channel 0", as a number: there are eight channels, and the comparison of each
    channel's number with zero is the bit 1 for channel 0 and the bit 0 for the seven others. -/
theorem flag_toNat : ∀ c : Fin 8,
    (IntOp.cmpi .eq (BitVec.ofNat 32 c.val) 0#32).toNat = if c.val = 0 then 1 else 0 := by decide

/-- The host's spelling: the flag converted to a float, read unsigned, is the weight. -/
theorem uitofp_flag (c : Fin 8) :
    FloatOps.uitofp (F := Ideal) .f32 (IntOp.cmpi .eq (BitVec.ofNat 32 c.val) 0#32) = weight c.val := by
  show (((IntOp.cmpi .eq (BitVec.ofNat 32 c.val) 0#32).toNat : ℝ) : EReal) = _
  rw [flag_toNat]
  unfold weight
  split <;> simp

/-- The kernel's spelling: the flag widened to 32 bits and converted, read signed, is the weight. -/
theorem sitofp_flag (c : Fin 8) :
    FloatOps.sitofp (F := Ideal) .f32 ((IntOp.cmpi .eq (BitVec.ofNat 32 c.val) 0#32).setWidth 32) = weight c.val := by
  show ((((IntOp.cmpi .eq (BitVec.ofNat 32 c.val) 0#32).setWidth 32).toInt : ℝ) : EReal) = _
  rw [toInt_setWidth_bit, flag_toNat]
  unfold weight
  split <;> simp

/-- The arrays' shape: 16 batches, 8 channels, 1048576 samples. -/
abbrev Arr : Shape := ⟨3, ![16, 8, 1048576]⟩

/-- What both programs compute of the array `x`: the entry at (b, c, s) times the weight of its channel c, that
    is, channel 0 kept and the seven other channels multiplied by zero. -/
def keepFirst (x : FVec Ideal Arr .f32) : FVec Ideal Arr .f32 := fun i => x i * weight (i 1).val

end Cert.ChannelWeight

end
-- ==== Proof.KernelValue.lean ====
/-
  The kernel's result array is `keepFirst` of its argument. The grid has 128 points; point t works on the block
  of all 16 batches, all 8 channels and the 8192 samples from 8192·t on, of the argument and of the result
  alike. The body multiplies the loaded block, entry by entry, by the weight of the entry's channel: inside a
  block the channel coordinate is the array's own, because a block holds all eight channels from channel 0.
  So what point t writes back is block t of `keepFirst x`; the 128 blocks cover every sample (sample s lies in
  block s / 8192), and the array after the run is `keepFirst x` everywhere.
-/
import proofs.«132608_j54365696033605_1_alg».proof.Proof.Gen.KernelIdeal.Value
import proofs.«132608_j54365696033605_1_alg».proof.Proof.ChannelWeight

noncomputable section

namespace Cert.KernelIdeal.KerValue

open Cert.KernelIdeal Cert.KernelIdeal.Gen Cert.KernelIdeal.Value Cert.ChannelWeight
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The argument array on core `c`, as the region finds it (which is as launched), at its literal type. -/
abbrev xarr (c : Dev nD) : FVec Ideal S16x8x1048576 .f32 := V m c main_arg0

/-- The body's one load and one store go through the whole block: their offset is zero on every axis. -/
theorem zero_off : (![0, 0, 0] : Fin 3 → Nat) = fun _ => 0 := funext fun a => by fin_cases a <;> rfl

/-- The body's arithmetic at an entry of the block: the loaded value times the weight of the entry's channel
    (the iota along the channel axis reads the channel coordinate; its comparison with zero, widened and
    converted, is the weight). -/
theorem pay_apply (v : Vec Ideal S16x8x8192 .f32) (j : S16x8x8192.Idx) :
    k0_pay1 (F := Ideal) v j = v j * weight (j 1).val := by
  unfold k0_pay1
  show v j * FloatOps.sitofp (F := Ideal) .f32
      ((IntOp.cmpi .eq (iota .tc S16x8x8192 32 [1] iota_S16x8x8192_d1_w32 j) 0#32).setWidth 32) = _
  rw [iota_single_apply, sitofp_flag ⟨(j 1).val, (j 1).isLt⟩]

/-- The two index maps, decided over the 128 grid points: the argument's block and the result's block at a
    point have the same block index on every axis; that index is 0 on the batch and channel axes and the
    point's number on the sample axis. -/
theorem idx_facts : ∀ t : Fin cfg0.N,
    win0_0.index t (0 : Fin 3) = win0_1.index t (0 : Fin 3)
    ∧ win0_0.index t (1 : Fin 3) = win0_1.index t (1 : Fin 3)
    ∧ win0_0.index t (2 : Fin 3) = win0_1.index t (2 : Fin 3)
    ∧ win0_1.index t (0 : Fin 3) = 0 ∧ win0_1.index t (1 : Fin 3) = 0 ∧ win0_1.index t (2 : Fin 3) = t.val :=
  (by decide +kernel : ∀ t : Fin grid0.N, _)

/-- What point `t` writes back is block `t` of `keepFirst` of the argument array. -/
theorem flushed_eq (c : Dev nD) (t : Fin cfg0.N) :
    (dats m 0 c).flushed 1 t = ((cfg0.win 1).blk t).view.read (Elt Ideal) (keepFirst (xarr m c)) := by
  rw [flushed1]
  unfold out0_1
  rw [View.canon_unit_zero zero_off]
  simp only [View.ld_unit_zero (S := S16x8x8192) zero_off]
  obtain ⟨e0, e1, e2, z0, z1, -⟩ := idx_facts t
  funext j
  show k0_pay1 (F := Ideal) (iblk m c 0 t) j = keepFirst (xarr m c) (((cfg0.win 1).blk t).view.emb j)
  refine (pay_apply _ _).trans ?_
  show xarr m c (((cfg0.win 0).blk t).view.emb j) * weight (j 1).val
    = xarr m c (((cfg0.win 1).blk t).view.emb j) * weight ((((cfg0.win 1).blk t).view.emb j) 1).val
  have h0 : ((cfg0.win 0).blk t).view.emb j = ((cfg0.win 1).blk t).view.emb j := by
    funext a; apply Fin.ext
    match a with
    | ⟨0, _⟩ => show win0_0.index t (0 : Fin 3) * 16 + 1 * (j 0).val = win0_1.index t (0 : Fin 3) * 16 + 1 * (j 0).val; omega
    | ⟨1, _⟩ => show win0_0.index t (1 : Fin 3) * 8 + 1 * (j 1).val = win0_1.index t (1 : Fin 3) * 8 + 1 * (j 1).val; omega
    | ⟨2, _⟩ => show win0_0.index t (2 : Fin 3) * 8192 + 1 * (j 2).val = win0_1.index t (2 : Fin 3) * 8192 + 1 * (j 2).val; omega
  have h1 : ((((cfg0.win 1).blk t).view.emb j) 1).val = (j 1).val := by
    show win0_1.index t (1 : Fin 3) * 8 + 1 * (j 1).val = (j 1).val; omega
  rw [h0, h1]

/-- An index of the array is in point `t`'s block iff each coordinate is in the block's range on its axis. -/
theorem mem_blk (t : Fin cfg0.N) (i : S16x8x1048576.Idx) :
    i ∈ ((cfg0.win 1).blk t).view.set ↔ ∀ a : Fin 3, win0_1.index t a * S16x8x8192.size a ≤ (i a).val
      ∧ (i a).val < win0_1.index t a * S16x8x8192.size a + S16x8x8192.size a := by
  show i ∈ ((View.whole main_v0).slice (win0_1.rect t)).set ↔ _
  rw [View.set_slice_whole, Rect.mem_set_unit]
  exact Iff.rfl

/-- Every index of the array lies in some point's block: the one numbered by its sample divided by 8192. -/
theorem cover (i : S16x8x1048576.Idx) :
    ∃ t : Fin cfg0.N, (cfg0.win 1).flush t = true ∧ i ∈ ((cfg0.win 1).blk t).view.set := by
  have hi0 : (i 0).val < 16 := (i 0).isLt
  have hi1 : (i 1).val < 8 := (i 1).isLt
  have hi2 : (i 2).val < 1048576 := (i 2).isLt
  let t : Fin cfg0.N := ⟨(i 2).val / 8192, by show (i 2).val / 8192 < 128; omega⟩
  obtain ⟨-, -, -, z0, z1, z2⟩ := idx_facts t
  have ht : t.val = (i 2).val / 8192 := rfl
  refine ⟨t, flush0_1 t, ?_⟩
  rw [mem_blk]
  intro a
  match a with
  | ⟨0, _⟩ => show win0_1.index t (0 : Fin 3) * 16 ≤ (i 0).val ∧ (i 0).val < win0_1.index t (0 : Fin 3) * 16 + 16; omega
  | ⟨1, _⟩ => show win0_1.index t (1 : Fin 3) * 8 ≤ (i 1).val ∧ (i 1).val < win0_1.index t (1 : Fin 3) * 8 + 8; omega
  | ⟨2, _⟩ => show win0_1.index t (2 : Fin 3) * 8192 ≤ (i 2).val ∧ (i 2).val < win0_1.index t (2 : Fin 3) * 8192 + 8192; omega

/-- The result array after the run is `keepFirst` of the argument array as launched. -/
theorem final (c : Dev nD) :
    (dats m 0 c).arrAt 1 cfg0.N = keepFirst (m ((c : Thread nD τ).loc main_arg0)) :=
  (dats m 0 c).arrAt_eq_of_cover 1 (keepFirst (xarr m c)) (fun t _ => flushed_eq m c t) cover

/-- Every weakly fair execution of the kernel's program terminates with the result array at `keepFirst` of the
    argument and the argument unchanged. -/
theorem run : θ_run defs (onTc (τ := τ) (main (F := Ideal))) ⟨m, fun _ => 0, ρ⟩ fun r => ∀ c : Dev nD,
      r.2.mem ((c : Thread nD τ).loc main_v0) = keepFirst (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.KerValue

end
-- ==== Proof.RefValue.lean ====
/-
  The reference's result is `keepFirst` of its argument. The reference builds the eight weights as a vector
  (the channel numbers 0..7 compared with zero, the flags converted to floats), lays that vector along the
  channel axis of a [1, 8, 1] array, spreads it over the batches and the samples, and multiplies. Read at an
  index (b, c, s), the two broadcasts pick the vector's entry c, whatever b and s are, and that entry is the
  weight of channel c; so the product there is x[b, c, s] times the weight of c.
-/
import proofs.«132608_j54365696033605_1_alg».proof.Proof.Gen.ReferenceIdeal.Read
import proofs.«132608_j54365696033605_1_alg».proof.Proof.ChannelWeight

noncomputable section

namespace Cert.ReferenceIdeal.RefValue

open Cert.ReferenceIdeal Cert.ReferenceIdeal.Read Cert.ChannelWeight Idealize.ShloMosaic

/-- The entry of the weight vector that the two broadcasts read at an array index is the one of the index's
    channel coordinate. -/
theorem chan_of_bcast (i : S16x8x1048576.Idx) : ((idx_main_v4 (idx_main_v5 i)) 0).val = (i 1).val := rfl

/-- The reference's last stage, the product of the argument with the spread-out weights, is `keepFirst`. -/
theorem result_eq (x : FVec Ideal S16x8x1048576 .f32) : val_main_v6 (F := Ideal) x = keepFirst x := by
  funext i
  rw [val_main_v6_apply, val_main_v5_apply, val_main_v4_apply, val_main_v3_apply, val_main_v2_apply,
    val_main_v1_apply, val_main_v0_apply, val_main_c_apply, chan_of_bcast]
  show x i * FloatOps.uitofp (F := Ideal) .f32 (IntOp.cmpi .eq (BitVec.ofNat 32 (i 1).val) 0#32) = x i * weight (i 1).val
  rw [uitofp_flag ⟨(i 1).val, (i 1).isLt⟩]

end Cert.ReferenceIdeal.RefValue

end
-- ==== Proof.lean ====
/-
  The kernel zeroes every channel but channel 0 of an array x of 16 batches, 8 channels and 1048576 samples, and
  so does the reference: both multiply the entry x[b, c, s] by the weight of its channel c, which is 1 for c = 0
  and 0 for the seven other channels (Proof/ChannelWeight.lean: `keepFirst`, and the two spellings of the weight,
  the kernel's widened flag converted signed and the host's flag converted unsigned, which over the extended
  reals are the same number). The kernel works block by block along the sample axis, 128 blocks of 8192 samples;
  each block of its result is that block of `keepFirst x`, and the blocks cover the array (Proof/KernelValue.lean,
  over the generated block-by-block value leg). The reference computes the product in one piece from eight weights
  spread over the batches and samples (Proof/RefValue.lean, over the generated run and its reading at an index).
  Both multiply by the same weight, so the equality needs no law of the extended reals and the precondition is
  never opened. The ideal pass rewrote nothing, so the idealized kernel is the kernel's own text and `preserves`
  has no conjunct. The kernel's two frames are the generated ones; the reference's frame is its generated run
  with the result dropped.
-/
import proofs.«132608_j54365696033605_1_alg».proof.Defs
import proofs.«132608_j54365696033605_1_alg».proof.Proof.Gen.Kernel
import proofs.«132608_j54365696033605_1_alg».proof.Proof.Gen.Kernel.Skeleton
import proofs.«132608_j54365696033605_1_alg».proof.Proof.Gen.Kernel.Launch
import proofs.«132608_j54365696033605_1_alg».proof.Proof.Gen.Kernel.Points
import proofs.«132608_j54365696033605_1_alg».proof.Proof.Gen.Kernel.Frame
import proofs.«132608_j54365696033605_1_alg».proof.Proof.Gen.KernelIdeal
import proofs.«132608_j54365696033605_1_alg».proof.Proof.Gen.KernelIdeal.Skeleton
import proofs.«132608_j54365696033605_1_alg».proof.Proof.Gen.KernelIdeal.Launch
import proofs.«132608_j54365696033605_1_alg».proof.Proof.Gen.KernelIdeal.Points
import proofs.«132608_j54365696033605_1_alg».proof.Proof.Gen.KernelIdeal.Frame
import proofs.«132608_j54365696033605_1_alg».proof.Proof.Gen.ReferenceIdeal
import proofs.«132608_j54365696033605_1_alg».proof.Proof.Gen.Pre_finite_inputs
import proofs.«132608_j54365696033605_1_alg».proof.Proof.Gen.KernelIdeal.Value
import proofs.«132608_j54365696033605_1_alg».proof.Proof.Gen.ReferenceIdeal.Run
import proofs.«132608_j54365696033605_1_alg».proof.Proof.Gen.ReferenceIdeal.Read
import proofs.«132608_j54365696033605_1_alg».proof.Proof.ChannelWeight
import proofs.«132608_j54365696033605_1_alg».proof.Proof.KernelValue
import proofs.«132608_j54365696033605_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its argument as it was. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its argument as it was: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: nothing to state. -/
theorem preserves : Cert.preserves_Kernel_KernelIdeal := trivial

/-- From memories that agree on the argument x, the kernel's result array and the reference's both end at
    `keepFirst x`: x with channel 0 kept and every other channel multiplied by zero. -/
theorem algebraic : Cert.algebraic_KernelIdeal_ReferenceIdeal := by
  intro m ρ m' ρ' _ hagree
  refine ⟨fun c => Cert.ChannelWeight.keepFirst
      (m ((c.tc : Thread Cert.KernelIdeal.nD Cert.KernelIdeal.τ).loc Cert.KernelIdeal.main_arg0)),
    Cert.KernelIdeal.KerValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
